-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S2x524288 : Shape := ⟨2, ![2, 524288]⟩
abbrev S_ : Shape := ⟨0, ![]⟩
abbrev S3x16 : Shape := ⟨2, ![3, 16]⟩
abbrev S16 : Shape := ⟨1, ![16]⟩
abbrev S16x16 : Shape := ⟨2, ![16, 16]⟩
abbrev S16x1 : Shape := ⟨2, ![16, 1]⟩
abbrev S1 : Shape := ⟨1, ![1]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel
  reducesTo_S_S_d : S_.ReducesTo [] S_
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_v32 : IVec S_ 1) (main_v33 : FVec F S1 .f32) : IVec S_ 1 :=
  let main_cst_12 : FVec F S_ .f32 := constant S_ .f32 0x7F800000#32
  let main_v34 : FVec F S1 .f32 := broadcastInDim S1 ![] bcast_S_S1 main_cst_12
  let main_v35 : IVec S1 1 := cmpf .olt main_v33 main_v34
  let main_c_13 : IVec S_ 1 := constantI S_ 1 1#1
  let main_v36 : IVec S_ 1 := (fun x v => Host.reduce IntOp.andi x v reducesTo_S1_S_d0 h_S_) main_v35 main_c_13
  let main_v37 : IVec S_ 1 := andi main_v32 main_v36
  main_v37

def fn_part1 {F : FTy → Type} [FloatOps F] (main_arg5 : FVec F S16x16 .f32) (main_arg6 : FVec F S16 .f32) (main_arg7 : FVec F S16x1 .f32) (main_arg8 : FVec F S1 .f32) (main_v12 : IVec S_ 1) (main_v15 : IVec S16 1) (main_c_5 : IVec S_ 1) : IVec S_ 1 :=
  let main_v16 : IVec S_ 1 := (fun x v => Host.reduce IntOp.andi x v reducesTo_S16_S_d0 h_S_) main_v15 main_c_5
  let main_v17 : IVec S_ 1 := andi main_v12 main_v16
  let main_v18 : FVec F S16x16 .f32 := Host.absf main_arg5
  let main_cst_6 : FVec F S_ .f32 := constant S_ .f32 0x7F800000#32
  let main_v19 : FVec F S16x16 .f32 := broadcastInDim S16x16 ![] bcast_S_S16x16 main_cst_6
  let main_v20 : IVec S16x16 1 := cmpf .olt main_v18 main_v19
  let main_c_7 : IVec S_ 1 := constantI S_ 1 1#1
  let main_v21 : IVec S_ 1 := (fun x v => Host.reduce IntOp.andi x v reducesTo_S16x16_S_d0_1 h_S_) main_v20 main_c_7
  let main_v22 : IVec S_ 1 := andi main_v17 main_v21
  let main_v23 : FVec F S16 .f32 := Host.absf main_arg6
  let main_cst_8 : FVec F S_ .f32 := constant S_ .f32 0x7F800000#32
  let main_v24 : FVec F S16 .f32 := broadcastInDim S16 ![] bcast_S_S16 main_cst_8
  let main_v25 : IVec S16 1 := cmpf .olt main_v23 main_v24
  let main_c_9 : IVec S_ 1 := constantI S_ 1 1#1
  let main_v26 : IVec S_ 1 := (fun x v => Host.reduce IntOp.andi x v reducesTo_S16_S_d0 h_S_) main_v25 main_c_9
  let main_v27 : IVec S_ 1 := andi main_v22 main_v26
  let main_v28 : FVec F S16x1 .f32 := Host.absf main_arg7
  let main_cst_10 : FVec F S_ .f32 := constant S_ .f32 0x7F800000#32
  let main_v29 : FVec F S16x1 .f32 := broadcastInDim S16x1 ![] bcast_S_S16x1 main_cst_10
  let main_v30 : IVec S16x1 1 := cmpf .olt main_v28 main_v29
  let main_c_11 : IVec S_ 1 := constantI S_ 1 1#1
  let main_v31 : IVec S_ 1 := (fun x v => Host.reduce IntOp.andi x v reducesTo_S16x1_S_d0_1 h_S_) main_v30 main_c_11
  let main_v32 : IVec S_ 1 := andi main_v27 main_v31
  let main_v33 : FVec F S1 .f32 := Host.absf main_arg8
  fn_part2 (F := F) main_v32 main_v33

def fn {F : FTy → Type} [FloatOps F] (main_arg0 : FVec F S8192x3 .f32) (main_arg1 : IVec S2x524288 32) (main_arg2 : FVec F S_ .f32) (main_arg3 : FVec F S3x16 .f32) (main_arg4 : FVec F S16 .f32) (main_arg5 : FVec F S16x16 .f32) (main_arg6 : FVec F S16 .f32) (main_arg7 : FVec F S16x1 .f32) (main_arg8 : FVec F S1 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S3x16 .f32 := Host.absf main_arg3
  let main_cst_2 : FVec F S_ .f32 := constant S_ .f32 0x7F800000#32
  let main_v9 : FVec F S3x16 .f32 := broadcastInDim S3x16 ![] bcast_S_S3x16 main_cst_2
  let main_v10 : IVec S3x16 1 := cmpf .olt main_v8 main_v9
  let main_c_3 : IVec S_ 1 := constantI S_ 1 1#1
  let main_v11 : IVec S_ 1 := (fun x v => Host.reduce IntOp.andi x v reducesTo_S3x16_S_d0_1 h_S_) main_v10 main_c_3
  let main_v12 : IVec S_ 1 := andi main_v7 main_v11
  let main_v13 : FVec F S16 .f32 := Host.absf main_arg4
  let main_cst_4 : FVec F S_ .f32 := constant S_ .f32 0x7F800000#32
  let main_v14 : FVec F S16 .f32 := broadcastInDim S16 ![] bcast_S_S16 main_cst_4
  let main_v15 : IVec S16 1 := cmpf .olt main_v13 main_v14
  let main_c_5 : IVec S_ 1 := constantI S_ 1 1#1
  fn_part1 (F := F) main_arg5 main_arg6 main_arg7 main_arg8 main_v12 main_v15 main_c_5
-- ==== Kernel.lean ====
abbrev S8192x3 : Shape := ⟨2, ![8192, 3]⟩
abbrev S2x524288 : Shape := ⟨2, ![2, 524288]⟩
abbrev S_ : Shape := ⟨0, ![]⟩
abbrev S3x16 : Shape := ⟨2, ![3, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x524288 : Shape := ⟨2, ![1, 524288]⟩
abbrev S524288 : Shape := ⟨1, ![524288]⟩
abbrev S524288x1 : Shape := ⟨2, ![524288, 1]⟩
abbrev S524288x3 : Shape := ⟨2, ![524288, 3]⟩
abbrev S1x16 : Shape := ⟨2, ![1, 16]⟩
abbrev S1x1 : Shape := ⟨2, ![1, 1]⟩
abbrev S8192x1 : Shape := ⟨2, ![8192, 1]⟩
abbrev S8192x16 : Shape := ⟨2, ![8192, 16]⟩
abbrev S1x8192 : Shape := ⟨2, ![1, 8192]⟩
abbrev S8192x8192 : Shape := ⟨2, ![8192, 8192]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 37
  | .vmem => 14
  | .smem => 0
  | _ => 0

abbrev bufTy : (tb : Table) → Fin (tcTables nBuf tb) → BufTy
  | .hbm, ⟨0, _⟩ => ⟨S8192x3, .f32⟩
  | .hbm, ⟨1, _⟩ => ⟨S2x524288, .i32⟩
  | .hbm, ⟨2, _⟩ => ⟨S_, .f32⟩
  | .hbm, ⟨3, _⟩ => ⟨S3x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S1x524288, .i32⟩
  | .hbm, ⟨10, _⟩ => ⟨S524288, .i32⟩
  | .hbm, ⟨11, _⟩ => ⟨S1x524288, .i32⟩
  | .hbm, ⟨12, _⟩ => ⟨S524288, .i32⟩
  | .hbm, ⟨13, _⟩ => ⟨S_, .i32⟩
  | .hbm, ⟨14, _⟩ => ⟨S524288, .i32⟩
  | .hbm, ⟨15, _⟩ => ⟨S524288, .i1⟩
  | .hbm, ⟨16, _⟩ => ⟨S_, .i32⟩
  | .hbm, ⟨17, _⟩ => ⟨S524288, .i32⟩
  | .hbm, ⟨18, _⟩ => ⟨S524288, .i32⟩
  | .hbm, ⟨19, _⟩ => ⟨S524288, .i32⟩
  | .hbm, ⟨20, _⟩ => ⟨S524288x1, .i32⟩
  | .hbm, ⟨21, _⟩ => ⟨S524288x3, .f32⟩
  | .hbm, ⟨22, _⟩ => ⟨S_, .f32⟩
  | .hbm, ⟨23, _⟩ => ⟨S8192x3, .f32⟩
  | .hbm, ⟨24, _⟩ => ⟨S524288x1, .i32⟩
  | .hbm, ⟨25, _⟩ => ⟨S8192x3, .f32⟩
  | .hbm, ⟨26, _⟩ => ⟨S_, .f32⟩
  | .hbm, ⟨27, _⟩ => ⟨S_, .f32⟩
  | .hbm, ⟨28, _⟩ => ⟨S8192x3, .f32⟩
  | .hbm, ⟨29, _⟩ => ⟨S8192x3, .f32⟩
  | .hbm, ⟨30, _⟩ => ⟨S8192x3, .f32⟩
  | .hbm, ⟨31, _⟩ => ⟨S1x16, .f32⟩
  | .hbm, ⟨32, _⟩ => ⟨S1x16, .f32⟩
  | .hbm, ⟨33, _⟩ => ⟨S1x1, .f32⟩
  | .hbm, ⟨34, _⟩ => ⟨S8192x1, .f32⟩
  | .hbm, ⟨35, _⟩ => ⟨S1x8192, .f32⟩
  | .hbm, ⟨36, _⟩ => ⟨S8192x8192, .f32⟩
  | .local _ .vmem, ⟨0, _⟩ => ⟨S8192x3, .f32⟩
  | .local _ .vmem, ⟨1, _⟩ => ⟨S3x16, .f32⟩
  | .local _ .vmem, ⟨2, _⟩ => ⟨S1x16, .f32⟩
  | .local _ .vmem, ⟨3, _⟩ => ⟨S16x16, .f32⟩
  | .local _ .vmem, ⟨4, _⟩ => ⟨S1x16, .f32⟩
  | .local _ .vmem, ⟨5, _⟩ => ⟨S16x1, .f32⟩
  | .local _ .vmem, ⟨6, _⟩ => ⟨S1x1, .f32⟩
  | .local _ .vmem, ⟨7, _⟩ => ⟨S8192x1, .f32⟩
  | .local _ .vmem, ⟨8, _⟩ => ⟨S2048x1, .f32⟩
  | .local _ .vmem, ⟨9, _⟩ => ⟨S2048x1, .f32⟩
  | .local _ .vmem, ⟨10, _⟩ => ⟨S1x2048, .f32⟩
  | .local _ .vmem, ⟨11, _⟩ => ⟨S1x2048, .f32⟩
  | .local _ .vmem, ⟨12, _⟩ => ⟨S2048x2048, .f32⟩
  | .local _ .vmem, ⟨13, _⟩ => ⟨S2048x2048, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8192x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S8192x3 : S_.BroadcastsInDim S8192x3 (![] : Fin 0 → Fin S8192x3.rank)
  shapeCasts_S16_S1x16 : S16.ShapeCasts S1x16
  shapeCasts_S1_S1x1 : S1.ShapeCasts S1x1
  inb_S8192x3_S8192x3_0_0 : ∀ a, (![0, 0] : Fin 2 → Nat) a + S8192x3.size a ≤ S8192x3.size a
  h_S8192x3 : 0 < S8192x3.numel
  shapeCasts_S8192x3_S8192x3 : S8192x3.ShapeCasts S8192x3
  inb_S3x16_S3x16_0_0 : ∀ a, (![0, 0] : Fin 2 → Nat) a + S3x16.size a ≤ S3x16.size a
  h_S3x16 : 0 < S3x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  inb_S16x16_S16x16_0_0 : ∀ a, (![0, 0] : Fin 2 → Nat) a + S16x16.size a ≤ S16x16.size a
  h_S16x16 : 0 < S16x16.numel
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  shapeCasts_S8192x1_S1x8192 : S8192x1.ShapeCasts S1x8192
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  gather_S8192x3_S524288x1_S524288x3_1_0_n_n_0_1_13_wf : GatherDims.WF S8192x3 S524288x1 S524288x3 [1] [0] [] [0] [] 1 ![1, 3]
  scatter_S8192x3_S524288x1_S524288x3_1_0_0_1_wf : ScatterDims.WF S8192x3 S524288x1 S524288x3 [1] [0] [0] 1
  dot_S8192x3_S3x16_S8192x16_1_0_0_1_n_n_wf : DotDims.WF S8192x3 S3x16 S8192x16 [1] [0] [0] [1] [] []
  dot_S8192x16_S16x16_S8192x16_1_0_0_1_n_n_wf : DotDims.WF S8192x16 S16x16 S8192x16 [1] [0] [0] [1] [] []
  dot_S8192x16_S16x1_S8192x1_1_0_0_1_n_n_wf : DotDims.WF S8192x16 S16x1 S8192x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x3.size a ≤ S8192x3.size a
  hwx0_0 : ∀ i : grid0.Coords, EltTy.bits .f32 = 32 ∨ (Rect.block (s := S8192x3) S8192x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8192x1.size a ≤ S8192x1.size a
  hwx0_7 : ∀ i : grid0.Coords, EltTy.bits .f32 = 32 ∨ (Rect.block (s := S8192x1) S8192x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1.size a ≤ S8192x1.size a
  hwx1_0 : ∀ i : grid1.Coords, EltTy.bits .f32 = 32 ∨ (Rect.block (s := S8192x1) S2048x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x8192.size a
  hwx1_1 : ∀ i : grid1.Coords, EltTy.bits .f32 = 32 ∨ (Rect.block (s := S1x8192) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S8192x8192.size a
  hwx1_2 : ∀ i : grid1.Coords, EltTy.bits .f32 = 32 ∨ (Rect.block (s := S8192x8192) S2048x2048.size (cc1_transform_2 i) (hinb1_2 i)).WholeWords (EltTy.packing .f32)

variable [Facts₀]

def gather_S8192x3_S524288x1_S524288x3_1_0_n_n_0_1_13 : GatherDims S8192x3 S524288x1 S524288x3 where
  offsetDims := [1]
  collapsedSliceDims := [0]
  operandBatchingDims := []
  startIndicesBatchingDims := []
  startIndexMap := [0]
  indexVectorDim := 1
  sliceSizes := ![1, 3]
  wf := gather_S8192x3_S524288x1_S524288x3_1_0_n_n_0_1_13_wf
def scatter_S8192x3_S524288x1_S524288x3_1_0_0_1 : ScatterDims S8192x3 S524288x1 S524288x3 where
  updateWindowDims := [1]
  insertedWindowDims := [0]
  scatterDimsToOperandDims := [0]
  indexVectorDim := 1
  wf := scatter_S8192x3_S524288x1_S524288x3_1_0_0_1_wf
def dot_S8192x3_S3x16_S8192x16_1_0_0_1_n_n : DotDims S8192x3 S3x16 S8192x16 where
  lhsContracting := [1]
  rhsContracting := [0]
  lhsNonContracting := [0]
  rhsNonContracting := [1]
  lhsBatch := []
  rhsBatch := []
  wf := dot_S8192x3_S3x16_S8192x16_1_0_0_1_n_n_wf
def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf
def dot_S8192x16_S16x1_S8192x1_1_0_0_1_n_n : DotDims S8192x16 S16x1 S8192x1 where
  lhsContracting := [1]
  rhsContracting := [0]
  lhsNonContracting := [0]
  rhsNonContracting := [1]
  lhsBatch := []
  rhsBatch := []
  wf := dot_S8192x16_S16x1_S8192x1_1_0_0_1_n_n_wf

abbrev win0_0 : Pipeline.Window sig grid0 :=
  Pipeline.Window.ofSpec (Memref.whole main_v17) S8192x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S8192x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v21) S2048x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S2048x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x3 : Shape := ⟨2, ![8192, 3]⟩
abbrev S2x524288 : Shape := ⟨2, ![2, 524288]⟩
abbrev S_ : Shape := ⟨0, ![]⟩
abbrev S3x16 : Shape := ⟨2, ![3, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x524288 : Shape := ⟨2, ![1, 524288]⟩
abbrev S524288 : Shape := ⟨1, ![524288]⟩
abbrev S524288x1 : Shape := ⟨2, ![524288, 1]⟩
abbrev S524288x3 : Shape := ⟨2, ![524288, 3]⟩
abbrev S8192x16 : Shape := ⟨2, ![8192, 16]⟩
abbrev S1x16 : Shape := ⟨2, ![1, 16]⟩
abbrev S8192x1 : Shape := ⟨2, ![8192, 1]⟩
abbrev S1x1 : Shape := ⟨2, ![1, 1]⟩
abbrev S1x8192 : Shape := ⟨2, ![1, 8192]⟩
abbrev S8192x8192 : Shape := ⟨2, ![8192, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S2x524288, .i32⟩
  | .hbm, ⟨2, _⟩ => ⟨S_, .f32⟩
  | .hbm, ⟨3, _⟩ => ⟨S3x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S1x524288, .i32⟩
  | .hbm, ⟨10, _⟩ => ⟨S524288, .i32⟩
  | .hbm, ⟨11, _⟩ => ⟨S1x524288, .i32⟩
  | .hbm, ⟨12, _⟩ => ⟨S524288, .i32⟩
  | .hbm, ⟨13, _⟩ => ⟨S_, .i32⟩
  | .hbm, ⟨14, _⟩ => ⟨S524288, .i32⟩
  | .hbm, ⟨15, _⟩ => ⟨S524288, .i1⟩
  | .hbm, ⟨16, _⟩ => ⟨S_, .i32⟩
  | .hbm, ⟨17, _⟩ => ⟨S524288, .i32⟩
  | .hbm, ⟨18, _⟩ => ⟨S524288, .i32⟩
  | .hbm, ⟨19, _⟩ => ⟨S524288, .i32⟩
  | .hbm, ⟨20, _⟩ => ⟨S524288x1, .i32⟩
  | .hbm, ⟨21, _⟩ => ⟨S524288x3, .f32⟩
  | .hbm, ⟨22, _⟩ => ⟨S_, .f32⟩
  | .hbm, ⟨23, _⟩ => ⟨S8192x3, .f32⟩
  | .hbm, ⟨24, _⟩ => ⟨S524288x1, .i32⟩
  | .hbm, ⟨25, _⟩ => ⟨S8192x3, .f32⟩
  | .hbm, ⟨26, _⟩ => ⟨S_, .f32⟩
  | .hbm, ⟨27, _⟩ => ⟨S_, .f32⟩
  | .hbm, ⟨28, _⟩ => ⟨S8192x3, .f32⟩
  | .hbm, ⟨29, _⟩ => ⟨S8192x3, .f32⟩
  | .hbm, ⟨30, _⟩ => ⟨S8192x3, .f32⟩
  | .hbm, ⟨31, _⟩ => ⟨S8192x16, .f32⟩
  | .hbm, ⟨32, _⟩ => ⟨S1x16, .f32⟩
  | .hbm, ⟨33, _⟩ => ⟨S8192x16, .f32⟩
  | .hbm, ⟨34, _⟩ => ⟨S8192x16, .f32⟩
  | .hbm, ⟨35, _⟩ => ⟨S_, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S1x16, .f32⟩
  | .hbm, ⟨40, _⟩ => ⟨S8192x16, .f32⟩
  | .hbm, ⟨41, _⟩ => ⟨S8192x16, .f32⟩
  | .hbm, ⟨42, _⟩ => ⟨S_, .f32⟩
  | .hbm, ⟨43, _⟩ => ⟨S8192x16, .f32⟩
  | .hbm, ⟨44, _⟩ => ⟨S8192x16, .f32⟩
  | .hbm, ⟨45, _⟩ => ⟨S8192x1, .f32⟩
  | .hbm, ⟨46, _⟩ => ⟨S1x1, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S1x8192, .f32⟩
  | .hbm, ⟨53, _⟩ => ⟨S8192x8192, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_cst : Ref sig .tc := ⟨.hbm, 35, rfl⟩
abbrev main_call0_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call1_cst : Ref sig .tc := ⟨.hbm, 42, rfl⟩
abbrev main_call1_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call2_cst : Ref sig .tc := ⟨.hbm, 49, rfl⟩
abbrev main_call2_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S8192x3 : S_.BroadcastsInDim S8192x3 (![] : Fin 0 → Fin S8192x3.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  transposes_S8192x1_S1x8192_1_0 : S8192x1.Transposes [1, 0] S1x8192
  gather_S8192x3_S524288x1_S524288x3_1_0_n_n_0_1_13_wf : GatherDims.WF S8192x3 S524288x1 S524288x3 [1] [0] [] [0] [] 1 ![1, 3]
  scatter_S8192x3_S524288x1_S524288x3_1_0_0_1_wf : ScatterDims.WF S8192x3 S524288x1 S524288x3 [1] [0] [0] 1
  dot_S8192x3_S3x16_S8192x16_1_0_0_1_n_n_wf : DotDims.WF S8192x3 S3x16 S8192x16 [1] [0] [0] [1] [] []
  dot_S8192x16_S16x16_S8192x16_1_0_0_1_n_n_wf : DotDims.WF S8192x16 S16x16 S8192x16 [1] [0] [0] [1] [] []
  dot_S8192x16_S16x1_S8192x1_1_0_0_1_n_n_wf : DotDims.WF S8192x16 S16x1 S8192x1 [1] [0] [0] [1] [] []
  dot_S8192x1_S1x8192_S8192x8192_1_0_0_1_n_n_wf : DotDims.WF S8192x1 S1x8192 S8192x8192 [1] [0] [0] [1] [] []

variable [Facts₀]

def gather_S8192x3_S524288x1_S524288x3_1_0_n_n_0_1_13 : GatherDims S8192x3 S524288x1 S524288x3 where
  offsetDims := [1]
  collapsedSliceDims := [0]
  operandBatchingDims := []
  startIndicesBatchingDims := []
  startIndexMap := [0]
  indexVectorDim := 1
  sliceSizes := ![1, 3]
  wf := gather_S8192x3_S524288x1_S524288x3_1_0_n_n_0_1_13_wf
def scatter_S8192x3_S524288x1_S524288x3_1_0_0_1 : ScatterDims S8192x3 S524288x1 S524288x3 where
  updateWindowDims := [1]
  insertedWindowDims := [0]
  scatterDimsToOperandDims := [0]
  indexVectorDim := 1
  wf := scatter_S8192x3_S524288x1_S524288x3_1_0_0_1_wf
def dot_S8192x3_S3x16_S8192x16_1_0_0_1_n_n : DotDims S8192x3 S3x16 S8192x16 where
  lhsContracting := [1]
  rhsContracting := [0]
  lhsNonContracting := [0]
  rhsNonContracting := [1]
  lhsBatch := []
  rhsBatch := []
  wf := dot_S8192x3_S3x16_S8192x16_1_0_0_1_n_n_wf
def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf
def dot_S8192x16_S16x1_S8192x1_1_0_0_1_n_n : DotDims S8192x16 S16x1 S8192x1 where
  lhsContracting := [1]
  rhsContracting := [0]
  lhsNonContracting := [0]
  rhsNonContracting := [1]
  lhsBatch := []
  rhsBatch := []
  wf := dot_S8192x16_S16x1_S8192x1_1_0_0_1_n_n_wf
def dot_S8192x1_S1x8192_S8192x8192_1_0_0_1_n_n : DotDims S8192x1 S1x8192 S8192x8192 where
  lhsContracting := [1]
  rhsContracting := [0]
  lhsNonContracting := [0]
  rhsNonContracting := [1]
  lhsBatch := []
  rhsBatch := []
  wf := dot_S8192x1_S1x8192_S8192x8192_1_0_0_1_n_n_wf

class Facts : Prop extends Facts₀ where

variable [Facts]
-- ==== Proof.Region0.lean ====
/-
  The first region of the kernel's program: one grid point, every window's block its whole array. Its output array
  [8192, 1] ends holding the body's three dense layers applied to the arrays the region was entered with.
-/
import proofs.«101085_j90950227460160_1_alg».proof.Proof.Gen.KernelIdeal.Frame
import Idealize.ShloMosaic.Lib.Pipeline.Value

set_option maxRecDepth 16384

noncomputable section

namespace Cert.KernelIdeal.Mlp

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-! The printed index maps at the one grid point: every window sits at block (0, 0). -/

theorem idx_w0 : ∀ t : Fin cfg0.N, win0_0.index t (0 : Fin 2) = 0 ∧ win0_0.index t (1 : Fin 2) = 0 :=
  (by decide +kernel : ∀ t : Fin grid0.N, _)
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)

section
variable (V : (c : Dev nD) → (b : Ref sig .tc) → Buf (Elt F) ((c : Thread nD τ).loc b))

/-! Each input window's one block is its whole array: a block's coordinate is index × size + the coordinate inside
    the block, and the index is 0. -/

/-- The layer input [8192, 3]. -/
theorem blk0 (c : Dev nD) (t : Fin cfg0.N) : iblk0 V c 0 t = V c main_v17 := by
  obtain ⟨e0, e1⟩ := idx_w0 t
  funext y
  show V c main_v17 (((cfg0.win 0).blk t).view.emb y) = V c main_v17 y
  refine congrArg (V c main_v17) (funext fun a => Fin.ext ?_)
  match a with
  | ⟨0, _⟩ => show win0_0.index t (0 : Fin 2) * 8192 + 1 * (y 0).val = (y 0).val; omega
  | ⟨1, _⟩ => show win0_0.index t (1 : Fin 2) * 3 + 1 * (y 1).val = (y 1).val; omega

/-- The first weight matrix [3, 16]. -/
theorem blk1 (c : Dev nD) (t : Fin cfg0.N) : iblk0 V c 1 t = V c main_arg3 := by
  obtain ⟨e0, e1⟩ := idx_w1 t
  funext y
  show V c main_arg3 (((cfg0.win 1).blk t).view.emb y) = V c main_arg3 y
  refine congrArg (V c main_arg3) (funext fun a => Fin.ext ?_)
  match a with
  | ⟨0, _⟩ => show win0_1.index t (0 : Fin 2) * 3 + 1 * (y 0).val = (y 0).val; omega
  | ⟨1, _⟩ => show win0_1.index t (1 : Fin 2) * 16 + 1 * (y 1).val = (y 1).val; omega

/-- The first bias as a row [1, 16]. -/
theorem blk2 (c : Dev nD) (t : Fin cfg0.N) : iblk0 V c 2 t = V c main_v18 := by
  obtain ⟨e0, e1⟩ := idx_w2 t
  funext y
  show V c main_v18 (((cfg0.win 2).blk t).view.emb y) = V c main_v18 y
  refine congrArg (V c main_v18) (funext fun a => Fin.ext ?_)
  match a with
  | ⟨0, _⟩ => show win0_2.index t (0 : Fin 2) * 1 + 1 * (y 0).val = (y 0).val; omega
  | ⟨1, _⟩ => show win0_2.index t (1 : Fin 2) * 16 + 1 * (y 1).val = (y 1).val; omega

/-- The second weight matrix [16, 16]. -/
theorem blk3 (c : Dev nD) (t : Fin cfg0.N) : iblk0 V c 3 t = V c main_arg5 := by
  obtain ⟨e0, e1⟩ := idx_w3 t
  funext y
  show V c main_arg5 (((cfg0.win 3).blk t).view.emb y) = V c main_arg5 y
  refine congrArg (V c main_arg5) (funext fun a => Fin.ext ?_)
  match a with
  | ⟨0, _⟩ => show win0_3.index t (0 : Fin 2) * 16 + 1 * (y 0).val = (y 0).val; omega
  | ⟨1, _⟩ => show win0_3.index t (1 : Fin 2) * 16 + 1 * (y 1).val = (y 1).val; omega

/-- The second bias as a row [1, 16]. -/
theorem blk4 (c : Dev nD) (t : Fin cfg0.N) : iblk0 V c 4 t = V c main_v19 := by
  obtain ⟨e0, e1⟩ := idx_w4 t
  funext y
  show V c main_v19 (((cfg0.win 4).blk t).view.emb y) = V c main_v19 y
  refine congrArg (V c main_v19) (funext fun a => Fin.ext ?_)
  match a with
  | ⟨0, _⟩ => show win0_4.index t (0 : Fin 2) * 1 + 1 * (y 0).val = (y 0).val; omega
  | ⟨1, _⟩ => show win0_4.index t (1 : Fin 2) * 16 + 1 * (y 1).val = (y 1).val; omega

/-- The third weight matrix [16, 1]. -/
theorem blk5 (c : Dev nD) (t : Fin cfg0.N) : iblk0 V c 5 t = V c main_arg7 := by
  obtain ⟨e0, e1⟩ := idx_w5 t
  funext y
  show V c main_arg7 (((cfg0.win 5).blk t).view.emb y) = V c main_arg7 y
  refine congrArg (V c main_arg7) (funext fun a => Fin.ext ?_)
  match a with
  | ⟨0, _⟩ => show win0_5.index t (0 : Fin 2) * 16 + 1 * (y 0).val = (y 0).val; omega
  | ⟨1, _⟩ => show win0_5.index t (1 : Fin 2) * 1 + 1 * (y 1).val = (y 1).val; omega

/-- The third bias as [1, 1]. -/
theorem blk6 (c : Dev nD) (t : Fin cfg0.N) : iblk0 V c 6 t = V c main_v20 := by
  obtain ⟨e0, e1⟩ := idx_w6 t
  funext y
  show V c main_v20 (((cfg0.win 6).blk t).view.emb y) = V c main_v20 y
  refine congrArg (V c main_v20) (funext fun a => Fin.ext ?_)
  match a with
  | ⟨0, _⟩ => show win0_6.index t (0 : Fin 2) * 1 + 1 * (y 0).val = (y 0).val; omega
  | ⟨1, _⟩ => show win0_6.index t (1 : Fin 2) * 1 + 1 * (y 1).val = (y 1).val; omega

/-- What the one grid point writes back is the whole of the body's result on the arrays the region was entered with. -/
theorem flushed_eq (c : Dev nD) (t : Fin cfg0.N) :
    (dat0 V c).flushed 7 t = ((cfg0.win 7).blk t).view.read (Elt F)
      (k0_pay1 (V c main_v17) (V c main_arg3) (V c main_v18) (V c main_arg5) (V c main_v19) (V c main_arg7) (V c main_v20)) := by
  show (cfg0.win 7).cut (grid0.coords t) ((dat0 V c).after 7 t) = _
  rw [after0_7]
  unfold out0_7
  rw [View.canon_unit_zero hz]
  simp only [View.ld_unit_zero (S := S8192x3) hz, View.ld_unit_zero (S := S3x16) hz, View.ld_unit_zero (S := S1x16) hz,
    View.ld_unit_zero (S := S16x16) hz, View.ld_unit_zero (S := S16x1) hz, View.ld_unit_zero (S := S1x1) hz]
  rw [blk0 V c t, blk1 V c t, blk2 V c t, blk3 V c t, blk4 V c t, blk5 V c t, blk6 V c t]
  obtain ⟨e0, e1⟩ := idx_w7 t
  funext y
  show k0_pay1 (V c main_v17) (V c main_arg3) (V c main_v18) (V c main_arg5) (V c main_v19) (V c main_arg7) (V c main_v20) y
     = k0_pay1 (V c main_v17) (V c main_arg3) (V c main_v18) (V c main_arg5) (V c main_v19) (V c main_arg7) (V c main_v20)
         (((cfg0.win 7).blk t).view.emb y)
  refine congrArg (k0_pay1 (V c main_v17) (V c main_arg3) (V c main_v18) (V c main_arg5) (V c main_v19) (V c main_arg7) (V c main_v20))
    (funext fun a => Fin.ext ?_)
  match a with
  | ⟨0, _⟩ => show (y 0).val = win0_7.index t (0 : Fin 2) * 8192 + 1 * (y 0).val; omega
  | ⟨1, _⟩ => show (y 1).val = win0_7.index t (1 : Fin 2) * 1 + 1 * (y 1).val; omega

/-- An index of the output array is in the point's block iff each coordinate is in the block's range on its axis. -/
theorem mem_blk (t : Fin cfg0.N) (i : S8192x1.Idx) :
    i ∈ ((cfg0.win 7).blk t).view.set ↔ ∀ a : Fin 2, win0_7.index t a * S8192x1.size a ≤ (i a).val ∧ (i a).val < win0_7.index t a * S8192x1.size a + S8192x1.size a := by
  show i ∈ ((View.whole main_v21).slice (win0_7.rect t)).set ↔ _
  rw [View.set_slice_whole, Rect.mem_set_unit]
  exact Iff.rfl

/-- The one block covers the array. -/
theorem cover (i : S8192x1.Idx) : ∃ t : Fin cfg0.N, (cfg0.win 7).flush t = true ∧ i ∈ ((cfg0.win 7).blk t).view.set := by
  have hi0 : (i 0).val < 8192 := (i 0).isLt
  have hi1 : (i 1).val < 1 := (i 1).isLt
  refine ⟨⟨0, by decide⟩, flush0_7 _, ?_⟩
  obtain ⟨e0, e1⟩ := idx_w7 ⟨0, by decide⟩
  rw [mem_blk]
  intro a
  match a with
  | ⟨0, _⟩ => show win0_7.index ⟨0, by decide⟩ (0 : Fin 2) * 8192 ≤ (i 0).val ∧ (i 0).val < win0_7.index ⟨0, by decide⟩ (0 : Fin 2) * 8192 + 8192; omega
  | ⟨1, _⟩ => show win0_7.index ⟨0, by decide⟩ (1 : Fin 2) * 1 ≤ (i 1).val ∧ (i 1).val < win0_7.index ⟨0, by decide⟩ (1 : Fin 2) * 1 + 1; omega

/-- The output array after the region: the body's three dense layers of the arrays the region was entered with. -/
theorem final (c : Dev nD) :
    (dat0 V c).arrAt 7 cfg0.N
      = k0_pay1 (V c main_v17) (V c main_arg3) (V c main_v18) (V c main_arg5) (V c main_v19) (V c main_arg7) (V c main_v20) :=
  (dat0 V c).arrAt_eq_of_cover 7
    (k0_pay1 (V c main_v17) (V c main_arg3) (V c main_v18) (V c main_arg5) (V c main_v19) (V c main_arg7) (V c main_v20))
    (fun t _ => flushed_eq V c t) cover

end

end Cert.KernelIdeal.Mlp

end
-- ==== Proof.Region1.lean ====
/-
  The second region of the kernel's program: a 4 × 4 grid of 2048 × 2048 blocks, block (a, b) the product of rows
  2048·a … of a column vector `h : [8192, 1]` with columns 2048·b … of a row vector `hT : [1, 8192]`. Its output
  array ends holding the outer product `(r, s) ↦ h (r, 0) · hT (0, s)` of the two arrays as the region finds them.
-/
import proofs.«101085_j90950227460160_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Outer

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-- The outer product of a column vector with a row vector, entry by entry. -/
def outer (h : S8192x1.Idx → Elt F .f32) (hT : S1x8192.Idx → Elt F .f32) : S8192x8192.Idx → Elt F .f32 :=
  fun i => FloatOps.mulf (h (ix2 (⟨(i 0).val, idx2_lt0 i⟩ : Fin 8192) (0 : Fin 1)))
    (hT (ix2 (0 : Fin 1) (⟨(i 1).val, idx2_lt1 i⟩ : Fin 8192)))

theorem hz : (![0, 0] : Fin 2 → Nat) = fun _ => 0 := funext fun a => by fin_cases a <;> rfl

/-- The body's product at `(p, q)` of a block: the column block's entry in row `p` times the row block's entry in
    column `q` (each operand broadcast along its unit axis). -/
theorem pay_apply (x0 : Vec F S2048x1 .f32) (x1 : Vec F S1x2048 .f32) (p q : Fin 2048) :
    k1_pay1 x0 x1 (ix2 p q) = FloatOps.mulf (x0 (ix2 p (0 : Fin 1))) (x1 (ix2 (0 : Fin 1) q)) := by
  unfold k1_pay1
  show FloatOps.mulf
      (broadcastTo S2048x2048 (shapeCast S2048x1 x0 shapeCasts_S2048x1_S2048x1) broadcasts_S2048x1_S2048x2048 (ix2 p q))
      (broadcastTo S2048x2048 (shapeCast S1x2048 x1 shapeCasts_S1x2048_S1x2048) broadcasts_S1x2048_S2048x2048 (ix2 p q)) = _
  have e0 : broadcastTo S2048x2048 (shapeCast S2048x1 x0 shapeCasts_S2048x1_S2048x1) broadcasts_S2048x1_S2048x2048 (ix2 p q)
      = x0 (ix2 p (0 : Fin 1)) := by
    rw [shapeCast_self]
    exact broadcastTo_apply x0 broadcasts_S2048x1_S2048x2048 (ix2 p q) (ix2 p (0 : Fin 1))
      (fun a => match a with | ⟨0, _⟩ => rfl | ⟨1, _⟩ => rfl)
  have e1 : broadcastTo S2048x2048 (shapeCast S1x2048 x1 shapeCasts_S1x2048_S1x2048) broadcasts_S1x2048_S2048x2048 (ix2 p q)
      = x1 (ix2 (0 : Fin 1) q) := by
    rw [shapeCast_self]
    exact broadcastTo_1b_ab_apply x1 broadcasts_S1x2048_S2048x2048 p q
  rw [e0, e1]

/-- The printed index maps over the 16 grid points: the column window moves with the output's row-block index and
    stays at column-block 0, the row window moves with the output's column-block index and stays at row-block 0, and
    the output's block indices are below 4. -/
theorem idx_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = win1_2.index t (1 : Fin 2)
    ∧ win1_2.index t (0 : Fin 2) ≤ 3 ∧ win1_2.index t (1 : Fin 2) ≤ 3 :=
  (by decide +kernel : ∀ t : Fin grid1.N, _)

/-- Every one of the 4 × 4 output blocks is some grid point's. -/
theorem idx_onto : ∀ (q0 : Fin 4) (q1 : Fin 4), ∃ t : Fin cfg1.N, win1_2.index t = ![q0.val, q1.val] :=
  (by decide +kernel : ∀ (q0 : Fin 4) (q1 : Fin 4), ∃ t : Fin grid1.N, win1_2.index t = ![q0.val, q1.val])

section
variable (V : (c : Dev nD) → (b : Ref sig .tc) → Buf (Elt F) ((c : Thread nD τ).loc b))

/-- What grid point `t` writes back is block `t` of the outer product of the two arrays the region was entered with. -/
theorem flushed_eq (c : Dev nD) (t : Fin cfg1.N) :
    (dat1 V c).flushed 2 t = ((cfg1.win 2).blk t).view.read (Elt F) (outer (V c main_v21) (V c main_v22)) := by
  show (cfg1.win 2).cut (grid1.coords t) ((dat1 V c).after 2 t) = _
  rw [after1_2]
  unfold out1_2
  rw [View.canon_unit_zero hz]
  simp only [View.ld_unit_zero (S := S2048x1) hz, View.ld_unit_zero (S := S1x2048) hz]
  obtain ⟨e0, e1, e2, e3, e4, e5⟩ := idx_facts t
  funext j
  obtain ⟨p, q, rfl⟩ : ∃ (p q : Fin 2048), j = ix2 p q := ⟨j 0, j 1, eq_ix2 j⟩
  show k1_pay1 (iblk1 V c 0 t) (iblk1 V c 1 t) (ix2 p q) = outer (V c main_v21) (V c main_v22) (((cfg1.win 2).blk t).view.emb (ix2 p q))
  refine (pay_apply (iblk1 V c 0 t) (iblk1 V c 1 t) p q).trans ?_
  show FloatOps.mulf (V c main_v21 (((cfg1.win 0).blk t).view.emb (ix2 p (0 : Fin 1))))
      (V c main_v22 (((cfg1.win 1).blk t).view.emb (ix2 (0 : Fin 1) q))) = _
  unfold outer
  have h0 : ((cfg1.win 0).blk t).view.emb (ix2 p (0 : Fin 1))
      = ix2 (⟨((((cfg1.win 2).blk t).view.emb (ix2 p q)) 0).val, idx2_lt0 _⟩ : Fin 8192) (0 : Fin 1) := by
    funext a; apply Fin.ext
    match a with
    | ⟨0, _⟩ => show win1_0.index t (0 : Fin 2) * 2048 + 1 * p.val = win1_2.index t (0 : Fin 2) * 2048 + 1 * p.val; omega
    | ⟨1, _⟩ => show win1_0.index t (1 : Fin 2) * 1 + 1 * 0 = 0; omega
  have h1 : ((cfg1.win 1).blk t).view.emb (ix2 (0 : Fin 1) q)
      = ix2 (0 : Fin 1) (⟨((((cfg1.win 2).blk t).view.emb (ix2 p q)) 1).val, idx2_lt1 _⟩ : Fin 8192) := by
    funext a; apply Fin.ext
    match a with
    | ⟨0, _⟩ => show win1_1.index t (0 : Fin 2) * 1 + 1 * 0 = 0; omega
    | ⟨1, _⟩ => show win1_1.index t (1 : Fin 2) * 2048 + 1 * q.val = win1_2.index t (1 : Fin 2) * 2048 + 1 * q.val; omega
  rw [h0, h1]

/-- An index of the output array is in point `t`'s block iff each coordinate is in the block's range on its axis. -/
theorem mem_blk (t : Fin cfg1.N) (i : S8192x8192.Idx) :
    i ∈ ((cfg1.win 2).blk t).view.set ↔ ∀ a : Fin 2, win1_2.index t a * S2048x2048.size a ≤ (i a).val ∧ (i a).val < win1_2.index t a * S2048x2048.size a + S2048x2048.size a := by
  show i ∈ ((View.whole main_v23).slice (win1_2.rect t)).set ↔ _
  rw [View.set_slice_whole, Rect.mem_set_unit]
  exact Iff.rfl

/-- The 16 blocks tile the array: entry `(r, s)` lies in the block of the point with block indices `(r / 2048, s / 2048)`. -/
theorem cover (i : S8192x8192.Idx) : ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := idx_onto ⟨(i 0).val / 2048, by omega⟩ ⟨(i 1).val / 2048, by omega⟩
  have q0 : win1_2.index t (0 : Fin 2) = (i 0).val / 2048 := congrFun ht 0
  have q1 : win1_2.index t (1 : Fin 2) = (i 1).val / 2048 := congrFun ht 1
  refine ⟨t, flush1_2 t, ?_⟩
  rw [mem_blk]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 2048 ≤ (i 1).val ∧ (i 1).val < win1_2.index t (1 : Fin 2) * 2048 + 2048; omega

/-- The output array after the region's write-backs: the outer product of the two arrays the region was entered with. -/
theorem final (c : Dev nD) : (dat1 V c).arrAt 2 cfg1.N = outer (V c main_v21) (V c main_v22) :=
  (dat1 V c).arrAt_eq_of_cover 2 (outer (V c main_v21) (V c main_v22)) (fun t _ => flushed_eq V c t) cover

end

end Cert.KernelIdeal.Outer

end
-- ==== Proof.KernelValue.lean ====
/-
  The kernel program's result as one function of its arguments. The host operations before the first region leave
  the layer input z = (1 + eps) · x + (neighbour sums) in one buffer and the three biases reshaped to rows; the first
  region leaves h = the three dense layers of those in its output; the one host operation between the regions
  reshapes h : [8192, 1] to a row [1, 8192]; the second region leaves the outer product of h with that row.
-/
import proofs.«101085_j90950227460160_1_alg».proof.Proof.Region0
import proofs.«101085_j90950227460160_1_alg».proof.Proof.Region1
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## The first region's entry contents, buffer by buffer -/

/-- The first weight matrix is as launched: no host operation writes an argument. -/
theorem V1_arg3 (c : Dev nD) : V1 m ρ c main_arg3 = m ((c : Thread nD τ).loc main_arg3) := by
  show StableHlo.after hostOps0 (W0 m ρ c) (Proc.devRef .tc main_arg3) = _
  dsimp only [hostOps0]
  after_results

/-- The second weight matrix is as launched. -/
theorem V1_arg5 (c : Dev nD) : V1 m ρ c main_arg5 = m ((c : Thread nD τ).loc main_arg5) := by
  show StableHlo.after hostOps0 (W0 m ρ c) (Proc.devRef .tc main_arg5) = _
  dsimp only [hostOps0]
  after_results

/-- The third weight matrix is as launched. -/
theorem V1_arg7 (c : Dev nD) : V1 m ρ c main_arg7 = m ((c : Thread nD τ).loc main_arg7) := by
  show StableHlo.after hostOps0 (W0 m ρ c) (Proc.devRef .tc main_arg7) = _
  dsimp only [hostOps0]
  after_results

/-- The first bias [16] reshaped to a row [1, 16]. -/
theorem V1_v18 (c : Dev nD) :
    V1 m ρ c main_v18 = shapeCast S1x16 (m ((c : Thread nD τ).loc main_arg4)) shapeCasts_S16_S1x16 := by
  show StableHlo.after hostOps0 (W0 m ρ c) (Proc.devRef .tc main_v18) = _
  dsimp only [hostOps0]
  after_results
  rfl

/-- The second bias [16] reshaped to a row [1, 16]. -/
theorem V1_v19 (c : Dev nD) :
    V1 m ρ c main_v19 = shapeCast S1x16 (m ((c : Thread nD τ).loc main_arg6)) shapeCasts_S16_S1x16 := by
  show StableHlo.after hostOps0 (W0 m ρ c) (Proc.devRef .tc main_v19) = _
  dsimp only [hostOps0]
  after_results
  rfl

/-- The third bias [1] reshaped to [1, 1]. -/
theorem V1_v20 (c : Dev nD) :
    V1 m ρ c main_v20 = shapeCast S1x1 (m ((c : Thread nD τ).loc main_arg8)) shapeCasts_S1_S1x1 := by
  show StableHlo.after hostOps0 (W0 m ρ c) (Proc.devRef .tc main_v20) = _
  dsimp only [hostOps0]
  after_results
  rfl

/-! ## The hidden vector h -/

/-- h : [8192, 1], the three dense layers of the layer input (the buffer the host operations leave it in, kept as
    that buffer's contents) with the weights and biases as launched. -/
def hidden (c : Dev nD) : FVec F S8192x1 .f32 :=
  k0_pay1 (V1 m ρ c main_v17) (m ((c : Thread nD τ).loc main_arg3))
    (shapeCast S1x16 (m ((c : Thread nD τ).loc main_arg4)) shapeCasts_S16_S1x16) (m ((c : Thread nD τ).loc main_arg5))
    (shapeCast S1x16 (m ((c : Thread nD τ).loc main_arg6)) shapeCasts_S16_S1x16) (m ((c : Thread nD τ).loc main_arg7))
    (shapeCast S1x1 (m ((c : Thread nD τ).loc main_arg8)) shapeCasts_S1_S1x1)

/-- At the first region's exit its output buffer holds h. -/
theorem W2_v21 (c : Dev nD) : W2 m ρ c (Proc.devRef .tc main_v21) = hidden m ρ c := by
  refine (W2_arr m ρ c 7).trans ?_
  rw [Mlp.final (V1 m ρ) c, V1_arg3, V1_arg5, V1_arg7, V1_v18, V1_v19, V1_v20]
  rfl

/-! ## The second region's entry contents -/

/-- The column operand is h: the reshape between the regions writes another buffer. -/
theorem V3_v21 (c : Dev nD) : V3 m ρ c main_v21 = hidden m ρ c := by
  show StableHlo.after hostOps1 (W2 m ρ c) (Proc.devRef .tc main_v21) = _
  dsimp only [hostOps1]
  after_results
  exact W2_v21 m ρ c

/-- The row operand is h reshaped from [8192, 1] to [1, 8192]. -/
theorem V3_v22 (c : Dev nD) :
    V3 m ρ c main_v22 = shapeCast S1x8192 (hidden m ρ c) shapeCasts_S8192x1_S1x8192 := by
  show StableHlo.after hostOps1 (W2 m ρ c) (Proc.devRef .tc main_v22) = _
  dsimp only [hostOps1]
  after_results
  rw [W2_v21 m ρ c]
  rfl

/-! ## The result -/

/-- After the second region the result buffer holds the outer product of h with its own reshape to a row. -/
theorem result_eq (c : Dev nD) :
    W4 m ρ c (Proc.devRef .tc main_v23)
      = Outer.outer (hidden m ρ c) (shapeCast S1x8192 (hidden m ρ c) shapeCasts_S8192x1_S1x8192) := by
  refine (W4_arr m ρ c 2).trans ?_
  rw [Outer.final (V3 m ρ) c, V3_v21, V3_v22]

end Cert.KernelIdeal.Chain

end
-- ==== Proof.RefValue.lean ====
/-
  The reference's result read at an index. jnp's h @ h.T contracts an axis of extent one, so entry (r, s) is the one
  product h (r, 0) · hᵀ (0, s), and the transpose reads h at (s, 0): the entry is h (r, 0) · h (s, 0).
-/
import proofs.«101085_j90950227460160_1_alg».proof.Proof.Gen.ReferenceIdeal.Run
import proofs.«101085_j90950227460160_1_alg».proof.Proof.Gen.ReferenceIdeal.Read
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

variable (x0 : (⟨S8192x3, .f32⟩ : BufTy).Contents (Elt Ideal)) (x1 : (⟨S2x524288, .i32⟩ : BufTy).Contents (Elt Ideal))
  (x2 : (⟨S_, .f32⟩ : BufTy).Contents (Elt Ideal)) (x3 : (⟨S3x16, .f32⟩ : BufTy).Contents (Elt Ideal))
  (x4 : (⟨S16, .f32⟩ : BufTy).Contents (Elt Ideal)) (x5 : (⟨S16x16, .f32⟩ : BufTy).Contents (Elt Ideal))
  (x6 : (⟨S16, .f32⟩ : BufTy).Contents (Elt Ideal)) (x7 : (⟨S16x1, .f32⟩ : BufTy).Contents (Elt Ideal))
  (x8 : (⟨S1, .f32⟩ : BufTy).Contents (Elt Ideal))

/-- Entry (r, s) of the reference's result is h (r, 0) · h (s, 0), h the hidden vector the three dense layers leave. -/
theorem result_apply (i : S8192x8192.Idx) :
    val_main_v34 (F := Ideal) x0 x1 x2 x3 x4 x5 x6 x7 x8 i
      = val_main_v32 (F := Ideal) x0 x1 x2 x3 x4 x5 x6 x7 x8 (ix2 (⟨(i 0).val, idx2_lt0 i⟩ : Fin 8192) (0 : Fin 1))
        * val_main_v32 (F := Ideal) x0 x1 x2 x3 x4 x5 x6 x7 x8 (ix2 (⟨(i 1).val, idx2_lt1 i⟩ : Fin 8192) (0 : Fin 1)) := by
  rw [val_main_v34_apply, Fin.sum_univ_one, val_main_v33_apply]
  have el : lidx_main_v34 i (0 : Fin 1) = ix2 (⟨(i 0).val, idx2_lt0 i⟩ : Fin 8192) (0 : Fin 1) :=
    funext fun a => Fin.ext (by match a with | ⟨0, _⟩ => rfl | ⟨1, _⟩ => rfl)
  have er : idx_main_v33 (ridx_main_v34 i (0 : Fin 1)) = ix2 (⟨(i 1).val, idx2_lt1 i⟩ : Fin 8192) (0 : Fin 1) :=
    funext fun a => Fin.ext (by match a with | ⟨0, _⟩ => rfl | ⟨1, _⟩ => rfl)
  rw [el, er]

end Cert.ReferenceIdeal.RefValue

end
-- ==== Proof.Laws.lean ====
/-
  Whole-array laws at the exact (extended-real) reading of floats that join a kernel's vector spelling of a dense
  layer with the host's: a matrix product accumulated into zeros is the host's contraction; one bias row laid
  over every row of a matrix reads the same whether it is broadcast as a vector or in two host steps; the zero
  splat of a rectifier is the host's broadcast zero constant. Together: one rectified dense layer, spelt both ways.
-/
import Idealize.ShloMosaic.PureOps.Ideal.Laws
import Idealize.ShloMosaic.Lib.Pipeline.Value
import Idealize.ShloMosaic.Lib.ValueIdx
import Idealize.ShloMosaic.Lib.ValueLayout

noncomputable section

namespace Cert.DenseLaws

open Idealize.ShloMosaic Idealize.ShloMosaic.ValueIdx

/-- Into an accumulator of zeros the vector unit's matrix product is, entry by entry, the sum over the contracted
    axis of the operands' products, and so is the host's contraction over the same axes: one array. -/
theorem matmul_zero_eq_dotGeneral {sl sr so : Shape} (d : DotDims sl sr so) (p : Option ContractPrecision)
    (x : FVec Ideal sl .f32) (w : FVec Ideal sr .f32) :
    matmul d p x w (constant so .f32 0x00000000#32) = Host.dotGeneral d none x w := by
  funext j
  simp only [matmul, Host.dotGeneral]
  rw [Ideal.matmul_constant_zero_apply, Ideal.dotGeneral_apply]

/-- A length-B bias laid over the A rows of a matrix: cast to one row and broadcast down the rows, or broadcast
    along axis 1 into one row and then along both axes — at (p, q) both read the bias at q. -/
theorem bias_rows_eq {α : Type} {A B : ℕ} (b : (⟨1, ![B]⟩ : Shape).Idx → α)
    (h1 : (⟨1, ![B]⟩ : Shape).ShapeCasts ⟨2, ![1, B]⟩)
    (h3 : (⟨2, ![1, B]⟩ : Shape).Broadcasts ⟨2, ![A, B]⟩)
    (h4 : (⟨1, ![B]⟩ : Shape).BroadcastsInDim ⟨2, ![1, B]⟩ ![1])
    (h5 : (⟨2, ![1, B]⟩ : Shape).BroadcastsInDim ⟨2, ![A, B]⟩ ![0, 1]) :
    broadcastTo ⟨2, ![A, B]⟩ (shapeCast ⟨2, ![1, B]⟩ b h1) h3
      = broadcastInDim ⟨2, ![A, B]⟩ ![0, 1] h5 (broadcastInDim ⟨2, ![1, B]⟩ ![1] h4 b) := by
  funext j
  obtain ⟨p, q, rfl⟩ : ∃ (p : Fin A) (q : Fin B), j = ix2 p q := ⟨j 0, j 1, eq_ix2 j⟩
  rw [broadcastTo_1b_ab_apply, shapeCast_a_1a_apply]
  have hq : q.val < B := q.isLt
  rw [broadcastInDim_apply ![0, 1] h5 _ (ix2 p q) (ix2 (0 : Fin 1) q) (fun a => by
        match a with
        | ⟨0, _⟩ => rfl
        | ⟨1, _⟩ =>
          show q.val = if B = 1 then 0 else q.val
          split
          · omega
          · rfl)]
  rw [broadcastInDim_apply ![1] h4 b (ix2 (0 : Fin 1) q) (ix1 q) (fun a => by
        match a with
        | ⟨0, _⟩ =>
          show q.val = if B = 1 then 0 else q.val
          split
          · omega
          · rfl)]

/-- The rectifier's zero: the scalar zero splat over a vector is the host's zero constant broadcast to the shape. -/
theorem zero_splat_eq (s : Shape) (h : (⟨0, ![]⟩ : Shape).BroadcastsInDim s ![]) :
    (broadcast s (Scalar.ofBits (F := Ideal) .f32 0x00000000#32) : FVec Ideal s .f32)
      = broadcastInDim s ![] h (constant (F := Ideal) ⟨0, ![]⟩ .f32 0x00000000#32) := by
  funext j
  rfl

/-- One rectified dense layer max (x · w + b, 0) of an [A, K] input, a [K, B] weight and a length-B bias: the vector
    unit's spelling (product into zeros, the bias as a broadcast row, the scalar zero splat) is the host's (contraction,
    the bias broadcast in two steps, the zero constant broadcast). -/
theorem dense_eq {A K B : ℕ} (d : DotDims ⟨2, ![A, K]⟩ ⟨2, ![K, B]⟩ ⟨2, ![A, B]⟩) (p : Option ContractPrecision)
    (x : FVec Ideal ⟨2, ![A, K]⟩ .f32) (w : FVec Ideal ⟨2, ![K, B]⟩ .f32) (b : FVec Ideal ⟨1, ![B]⟩ .f32)
    (h1 : (⟨1, ![B]⟩ : Shape).ShapeCasts ⟨2, ![1, B]⟩)
    (h3 : (⟨2, ![1, B]⟩ : Shape).Broadcasts ⟨2, ![A, B]⟩)
    (h4 : (⟨1, ![B]⟩ : Shape).BroadcastsInDim ⟨2, ![1, B]⟩ ![1])
    (h5 : (⟨2, ![1, B]⟩ : Shape).BroadcastsInDim ⟨2, ![A, B]⟩ ![0, 1])
    (h6 : (⟨0, ![]⟩ : Shape).BroadcastsInDim ⟨2, ![A, B]⟩ ![]) :
    maximumf (addf (matmul d p x w (constant ⟨2, ![A, B]⟩ .f32 0x00000000#32))
        (broadcastTo ⟨2, ![A, B]⟩ (shapeCast ⟨2, ![1, B]⟩ b h1) h3))
      (broadcast ⟨2, ![A, B]⟩ (Scalar.ofBits (F := Ideal) .f32 0x00000000#32))
    = maximumf (addf (Host.dotGeneral d none x w)
        (broadcastInDim ⟨2, ![A, B]⟩ ![0, 1] h5 (broadcastInDim ⟨2, ![1, B]⟩ ![1] h4 b)))
      (broadcastInDim ⟨2, ![A, B]⟩ ![] h6 (constant (F := Ideal) ⟨0, ![]⟩ .f32 0x00000000#32)) := by
  rw [matmul_zero_eq_dotGeneral, bias_rows_eq b h1 h3 h4 h5, zero_splat_eq _ h6]

end Cert.DenseLaws

end
-- ==== Proof.Bridge.lean ====
/-
  The kernel program's result is the reference's, at the exact reading of floats.

  Both programs form the layer input z = (1 + eps) · x + (sum over incoming edges of the source rows of x) by the
  SAME host operations, so z is one function of (x, edges, eps) on both sides and is never opened. Each of the three
  rectified dense layers is spelt on the vector unit as a matrix product into zeros plus a broadcast bias row against a
  scalar zero splat, and on the host as a contraction plus a bias broadcast in two steps against a broadcast zero
  constant: one array (Laws.lean). So the hidden vector h : [8192, 1] is the same on both sides. The kernel then
  multiplies h (r, 0) by the reshape of h to a row read at (0, s), which is h (s, 0); the reference contracts h with
  its transpose over an axis of extent one, the one product h (r, 0) · h (s, 0).
-/
import proofs.«101085_j90950227460160_1_alg».proof.Proof.KernelValue
import proofs.«101085_j90950227460160_1_alg».proof.Proof.RefValue
import proofs.«101085_j90950227460160_1_alg».proof.Proof.Laws

set_option maxRecDepth 16384

noncomputable section

namespace Cert.Bridge

open Idealize.ShloMosaic Idealize.ShloMosaic.TcCoe Idealize.SL.Sem Idealize.ShloMosaic.ValueIdx
open Idealize.ShloMosaic.StableHlo

/-! ## The layer input: the same host operations on both sides -/

/-- The buffer the kernel program's host operations leave the layer input in holds the reference's stage for it:
    operation by operation the two programs print the same text. -/
theorem z_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.V1 m ρ c Cert.KernelIdeal.main_v17
      = Cert.ReferenceIdeal.Read.val_main_v17 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2)) := by
  show StableHlo.after Cert.KernelIdeal.Gen.hostOps0 (Cert.KernelIdeal.Gen.W0 m ρ c) (Proc.devRef .tc Cert.KernelIdeal.main_v17) = _
  dsimp only [Cert.KernelIdeal.Gen.hostOps0]
  after_results_simp
  rfl

/-! ## The three dense layers -/

section Layers

variable (x0 : (⟨Cert.ReferenceIdeal.S8192x3, .f32⟩ : BufTy).Contents (Elt Ideal))
  (x1 : (⟨Cert.ReferenceIdeal.S2x524288, .i32⟩ : BufTy).Contents (Elt Ideal))
  (x2 : (⟨Cert.ReferenceIdeal.S_, .f32⟩ : BufTy).Contents (Elt Ideal))
  (x3 : (⟨Cert.ReferenceIdeal.S3x16, .f32⟩ : BufTy).Contents (Elt Ideal))
  (x4 : (⟨Cert.ReferenceIdeal.S16, .f32⟩ : BufTy).Contents (Elt Ideal))
  (x5 : (⟨Cert.ReferenceIdeal.S16x16, .f32⟩ : BufTy).Contents (Elt Ideal))
  (x6 : (⟨Cert.ReferenceIdeal.S16, .f32⟩ : BufTy).Contents (Elt Ideal))
  (x7 : (⟨Cert.ReferenceIdeal.S16x1, .f32⟩ : BufTy).Contents (Elt Ideal))
  (x8 : (⟨Cert.ReferenceIdeal.S1, .f32⟩ : BufTy).Contents (Elt Ideal))

/-- The kernel's body on the layer input, the weights and the biases reshaped to rows is the reference's stage for the
    hidden vector: three rectified dense layers, each the same array in either spelling. -/
theorem mlp_eq :
    Cert.KernelIdeal.Gen.k0_pay1 (F := Ideal) (Cert.ReferenceIdeal.Read.val_main_v17 (F := Ideal) x0 x1 x2) x3
        (shapeCast Cert.KernelIdeal.S1x16 x4 Cert.KernelIdeal.Facts₀.shapeCasts_S16_S1x16) x5
        (shapeCast Cert.KernelIdeal.S1x16 x6 Cert.KernelIdeal.Facts₀.shapeCasts_S16_S1x16) x7
        (shapeCast Cert.KernelIdeal.S1x1 x8 Cert.KernelIdeal.Facts₀.shapeCasts_S1_S1x1)
      = Cert.ReferenceIdeal.Read.val_main_v32 (F := Ideal) x0 x1 x2 x3 x4 x5 x6 x7 x8 := by
  simp only [Cert.KernelIdeal.Gen.k0_pay1, Cert.ReferenceIdeal.Read.val_main_v32, Cert.ReferenceIdeal.Read.val_main_v31,
    Cert.ReferenceIdeal.Read.val_main_v30, Cert.ReferenceIdeal.Read.val_main_v29, Cert.ReferenceIdeal.Read.val_main_v28,
    Cert.ReferenceIdeal.Read.val_main_v27, Cert.ReferenceIdeal.Read.val_main_v26, Cert.ReferenceIdeal.Read.val_main_v25,
    Cert.ReferenceIdeal.Read.val_main_v24, Cert.ReferenceIdeal.Read.val_main_v23, Cert.ReferenceIdeal.Read.val_main_v22,
    Cert.ReferenceIdeal.Read.val_main_v21, Cert.ReferenceIdeal.Read.val_main_v20, Cert.ReferenceIdeal.Read.val_main_v19,
    Cert.ReferenceIdeal.Read.val_main_v18, Cert.ReferenceIdeal.Read.val_main_call0_v0, Cert.ReferenceIdeal.Read.val_main_call0_cst,
    Cert.ReferenceIdeal.Read.val_main_call1_v0, Cert.ReferenceIdeal.Read.val_main_call1_cst,
    Cert.ReferenceIdeal.Read.val_main_call2_v0, Cert.ReferenceIdeal.Read.val_main_call2_cst]
  generalize Cert.ReferenceIdeal.Read.val_main_v17 (F := Ideal) x0 x1 x2 = z
  simp only [shapeCast_self]
  rw [Cert.DenseLaws.dense_eq Cert.KernelIdeal.dot_S8192x3_S3x16_S8192x16_1_0_0_1_n_n (some .fp32) z x3 x4
        Cert.KernelIdeal.Facts₀.shapeCasts_S16_S1x16 Cert.KernelIdeal.Facts₀.broadcasts_S1x16_S8192x16
        Cert.ReferenceIdeal.Facts₀.bcast_S16_S1x16_1 Cert.ReferenceIdeal.Facts₀.bcast_S1x16_S8192x16_0_1
        Cert.ReferenceIdeal.Facts₀.bcast_S_S8192x16]
  rw [Cert.DenseLaws.dense_eq Cert.KernelIdeal.dot_S8192x16_S16x16_S8192x16_1_0_0_1_n_n (some .fp32) _ x5 x6
        Cert.KernelIdeal.Facts₀.shapeCasts_S16_S1x16 Cert.KernelIdeal.Facts₀.broadcasts_S1x16_S8192x16
        Cert.ReferenceIdeal.Facts₀.bcast_S16_S1x16_1 Cert.ReferenceIdeal.Facts₀.bcast_S1x16_S8192x16_0_1
        Cert.ReferenceIdeal.Facts₀.bcast_S_S8192x16]
  rw [Cert.DenseLaws.dense_eq Cert.KernelIdeal.dot_S8192x16_S16x1_S8192x1_1_0_0_1_n_n (some .fp32) _ x7 x8
        Cert.KernelIdeal.Facts₀.shapeCasts_S1_S1x1 Cert.KernelIdeal.Facts₀.broadcasts_S1x1_S8192x1
        Cert.ReferenceIdeal.Facts₀.bcast_S1_S1x1_1 Cert.ReferenceIdeal.Facts₀.bcast_S1x1_S8192x1_0_1
        Cert.ReferenceIdeal.Facts₀.bcast_S_S8192x1]
  rfl

end Layers

/-! ## The result -/

section Result

variable (m : (ℓ : Loc Cert.KernelIdeal.nD Cert.KernelIdeal.τ Cert.KernelIdeal.sig) → Buf (Elt Ideal) ℓ)
  (ρ : Dev Cert.KernelIdeal.nD → PrngReg)

/-- The hidden vector the kernel program's first region leaves is the reference's, of the launch contents. -/
theorem hidden_eq (c : Dev Cert.KernelIdeal.nD) :
    Cert.KernelIdeal.Chain.hidden m ρ c
      = Cert.ReferenceIdeal.Read.val_main_v32 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8)) := by
  unfold Cert.KernelIdeal.Chain.hidden
  rw [z_eq m ρ c]
  exact mlp_eq _ _ _ _ _ _ _ _ _

/-- A column [8192, 1] reshaped to a row [1, 8192] reads, at (0, s), the column at (s, 0): the same row-major place. -/
theorem row_of_column (h : Cert.KernelIdeal.S8192x1.Idx → Elt Ideal .f32) (s : Fin 8192) :
    shapeCast Cert.KernelIdeal.S1x8192 h Cert.KernelIdeal.Facts₀.shapeCasts_S8192x1_S1x8192 (ix2 (0 : Fin 1) s)
      = h (ix2 s (0 : Fin 1)) :=
  shapeCast_apply h Cert.KernelIdeal.Facts₀.shapeCasts_S8192x1_S1x8192 (ix2 (0 : Fin 1) s) (ix2 s (0 : Fin 1)) (by
    rw [Shape.rowMajor_val_two, Shape.rowMajor_val_two]
    show s.val * 1 + 0 = 0 * 8192 + s.val
    omega)

/-- The kernel program's result buffer, after its second region, holds the reference's result of the launch
    contents: at (r, s) both are h (r, 0) · h (s, 0). -/
theorem result (c : Dev Cert.KernelIdeal.nD) :
    Cert.KernelIdeal.Gen.W4 m ρ c (Proc.devRef .tc Cert.KernelIdeal.main_v23)
      = Cert.ReferenceIdeal.Read.val_main_v34 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8)) := by
  rw [Cert.KernelIdeal.Chain.result_eq m ρ c]
  funext i
  rw [Cert.ReferenceIdeal.RefValue.result_apply]
  unfold Cert.KernelIdeal.Outer.outer
  rw [row_of_column, hidden_eq m ρ c]
  rfl

end Result

end Cert.Bridge

end
-- ==== Proof.lean ====
/-
  The kernel forms, for 8192 graph nodes with 3 features and 524288 directed edges, the layer input
  z = (1 + eps) · x + (for each node, the sum of x over the sources of its incoming edges), passes it through three
  dense layers with a rectifier after each (3 → 16 → 16 → 1) to a hidden vector h : [8192, 1], and returns the outer
  product h hᵀ : [8192, 8192]. In the kernel's program z comes from host operations (a gather of source rows and a
  scatter-add at the destinations), the three layers are one single-point region on the vector unit, h is reshaped to a
  row on the host, and a second region over a 4 × 4 grid writes 2048 × 2048 blocks of products. The reference does all
  of it with jnp on the host, the outer product as a contraction of h with its transpose over an axis of extent one.

  At the exact reading of floats the two agree entry by entry, with no use of the inputs' finiteness: z is the same
  host text on both sides; a matrix product into zeros is the host's contraction and a bias row is the same broadcast
  either way (Laws.lean); a sum over one index is its one term (RefValue.lean); the blocks of the second region tile
  the result and block (a, b) at (p, q) is h (2048 a + p, 0) · h (2048 b + q, 0) (Region1.lean); Bridge.lean joins them.
  Each program terminates without a fault and leaves its arguments as launched: for the two kernel programs by their
  frames, for the reference by its run. The idealization rewrote nothing, so there is nothing for it to preserve.
-/
import proofs.«101085_j90950227460160_1_alg».proof.Defs
import proofs.«101085_j90950227460160_1_alg».proof.Proof.Gen.Kernel
import proofs.«101085_j90950227460160_1_alg».proof.Proof.Gen.Kernel.Skeleton
import proofs.«101085_j90950227460160_1_alg».proof.Proof.Gen.Kernel.Launch
import proofs.«101085_j90950227460160_1_alg».proof.Proof.Gen.Kernel.Points
import proofs.«101085_j90950227460160_1_alg».proof.Proof.Gen.Kernel.Frame
import proofs.«101085_j90950227460160_1_alg».proof.Proof.Gen.KernelIdeal
import proofs.«101085_j90950227460160_1_alg».proof.Proof.Gen.KernelIdeal.Skeleton
import proofs.«101085_j90950227460160_1_alg».proof.Proof.Gen.KernelIdeal.Launch
import proofs.«101085_j90950227460160_1_alg».proof.Proof.Gen.KernelIdeal.Points
import proofs.«101085_j90950227460160_1_alg».proof.Proof.Gen.KernelIdeal.Frame
import proofs.«101085_j90950227460160_1_alg».proof.Proof.Gen.ReferenceIdeal
import proofs.«101085_j90950227460160_1_alg».proof.Proof.Gen.ReferenceIdeal.Run
import proofs.«101085_j90950227460160_1_alg».proof.Proof.Gen.ReferenceIdeal.Read
import proofs.«101085_j90950227460160_1_alg».proof.Proof.Gen.Pre_finite_inputs
import proofs.«101085_j90950227460160_1_alg».proof.Proof.KernelRun
import proofs.«101085_j90950227460160_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does its exact reading. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the same result array: the kernel program's is
    what its second region's write-backs leave, which is the reference's term of the launch contents (Bridge.lean). -/
theorem algebraic : Cert.algebraic_KernelIdeal_ReferenceIdeal := by
  intro m ρ m' ρ' _ hagree
  refine ⟨fun c => Cert.KernelIdeal.Gen.W4 m ρ c (Proc.devRef .tc Cert.KernelIdeal.main_v23),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq]
  obtain ⟨h0, h1, h2, h3, h4, h5, h6, h7, h8⟩ := hagree c
  rw [h0, h1, h2, h3, h4, h5, h6, h7, h8]
  exact (Cert.Bridge.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
